-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S640000 : Shape := ⟨1, ![640000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x128 .f32) (main_arg7 : FVec F S128x128 .f32) (main_arg8 : FVec F S128 .f32) (main_arg9 : FVec F S128x1 .f32) (main_arg10 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x4 .f32) (main_arg1 : IVec S640000 32) (main_arg2 : IVec S640000 32) (main_arg3 : FVec F S4x128 .f32) (main_arg4 : FVec F S128 .f32) (main_arg5 : FVec F S3x128x128 .f32) (main_arg6 : FVec F S3x128 .f32) (main_arg7 : FVec F S128x128 .f32) (main_arg8 : FVec F S128 .f32) (main_arg9 : FVec F S128x1 .f32) (main_arg10 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S50000x4 : Shape := ⟨2, ![50000, 4]⟩
abbrev S640000 : Shape := ⟨1, ![640000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S50000x128 : Shape := ⟨2, ![50000, 128]⟩
abbrev S5000x4 : Shape := ⟨2, ![5000, 4]⟩
abbrev S5000x128 : Shape := ⟨2, ![5000, 128]⟩
abbrev S1x128 : Shape := ⟨2, ![1, 128]⟩
abbrev S640000x128 : Shape := ⟨2, ![640000, 128]⟩
abbrev S1x128x128 : Shape := ⟨3, ![1, 128, 128]⟩
abbrev S5000x1 : Shape := ⟨2, ![5000, 1]⟩
abbrev S1x1 : Shape := ⟨2, ![1, 1]⟩

abbrev nBuf : Space → Nat
  | .hbm => 106
  | .vmem => 36
  | .smem => 0
  | _ => 0

abbrev bufTy : (tb : Table) → Fin (tcTables nBuf tb) → BufTy
  | .hbm, ⟨0, _⟩ => ⟨S50000x4, .f32⟩
  | .hbm, ⟨1, _⟩ => ⟨S640000, .i32⟩
  | .hbm, ⟨2, _⟩ => ⟨S640000, .i32⟩
  | .hbm, ⟨3, _⟩ => ⟨S4x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S50000, .f32⟩
  | .hbm, ⟨15, _⟩ => ⟨S640000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S640000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S50000x128, .f32⟩
  | .hbm, ⟨51, _⟩ => ⟨S640000x1, .i32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S_, .f32⟩
  | .hbm, ⟨72, _⟩ => ⟨S50000x128, .f32⟩
  | .hbm, ⟨73, _⟩ => ⟨S640000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S640000, .i32⟩
  | .hbm, ⟨86, _⟩ => ⟨S640000, .i1⟩
  | .hbm, ⟨87, _⟩ => ⟨S_, .i32⟩
  | .hbm, ⟨88, _⟩ => ⟨S640000, .i32⟩
  | .hbm, ⟨89, _⟩ => ⟨S640000, .i32⟩
  | .hbm, ⟨90, _⟩ => ⟨S640000, .i32⟩
  | .hbm, ⟨91, _⟩ => ⟨S640000x1, .i32⟩
  | .hbm, ⟨92, _⟩ => ⟨S640000x128, .f32⟩
  | .hbm, ⟨93, _⟩ => ⟨S_, .f32⟩
  | .hbm, ⟨94, _⟩ => ⟨S50000x128, .f32⟩
  | .hbm, ⟨95, _⟩ => ⟨S640000x1, .i32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128x128, .f32⟩
  | .hbm, ⟨100, _⟩ => ⟨S128x128, .f32⟩
  | .hbm, ⟨101, _⟩ => ⟨S1x128, .f32⟩
  | .hbm, ⟨102, _⟩ => ⟨S128, .f32⟩
  | .hbm, ⟨103, _⟩ => ⟨S50000x128, .f32⟩
  | .hbm, ⟨104, _⟩ => ⟨S50000x128, .f32⟩
  | .hbm, ⟨105, _⟩ => ⟨S50000x1, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x1, .f32⟩
  | .local _ .vmem, ⟨33, _⟩ => ⟨S1, .f32⟩
  | .local _ .vmem, ⟨34, _⟩ => ⟨S5000x1, .f32⟩
  | .local _ .vmem, ⟨35, _⟩ => ⟨S5000x1, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S640000x1_S640000_n_0_0_1_wf : ScatterDims.WF S50000 S640000x1 S640000 [] [0] [0] 1
  dot_S5000x4_S4x128_S5000x128_1_0_0_1_n_n_wf : DotDims.WF S5000x4 S4x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1.size a ≤ S1.size a
  hwx5_2 : ∀ i : grid5.Coords, EltTy.bits .f32 = 32 ∨ (Rect.block (s := S1) S1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x4 : Shape := ⟨2, ![50000, 4]⟩
abbrev S640000 : Shape := ⟨1, ![640000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S50000x128 : Shape := ⟨2, ![50000, 128]⟩
abbrev S1x128 : Shape := ⟨2, ![1, 128]⟩
abbrev S640000x128 : Shape := ⟨2, ![640000, 128]⟩
abbrev S1x128x128 : Shape := ⟨3, ![1, 128, 128]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S50000x4, .f32⟩
  | 1 => ⟨S640000, .i32⟩
  | 2 => ⟨S640000, .i32⟩
  | 3 => ⟨S4x128, .f32⟩
  | 4 => ⟨S128, .f32⟩
  | 5 => ⟨S3x128x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S_, .f32⟩
  | 12 => ⟨S640000, .f32⟩
  | 13 => ⟨S_, .f32⟩
  | 14 => ⟨S50000, .f32⟩
  | 15 => ⟨S640000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S640000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S1x128, .f32⟩
  | 39 => ⟨S50000x128, .f32⟩
  | 40 => ⟨S50000x128, .f32⟩
  | 41 => ⟨S50000x128, .f32⟩
  | 42 => ⟨S50000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S_, .f32⟩
  | 53 => ⟨S50000x128, .f32⟩
  | 54 => ⟨S640000x1, .i32⟩
  | 55 => ⟨S50000x128, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S_, .f32⟩
  | 81 => ⟨S50000x128, .f32⟩
  | 82 => ⟨S640000x1, .i32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S50000x128, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000x128, .f32⟩
  | 108 => ⟨S_, .f32⟩
  | 109 => ⟨S50000x128, .f32⟩
  | 110 => ⟨S640000x1, .i32⟩
  | 111 => ⟨S50000x128, .f32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x4, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x1, .f32⟩
  | 5 => ⟨S1x1, .f32⟩
  | 6 => ⟨S50000x1, .f32⟩
  | 7 => ⟨S50000x1, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_cst : Ref sig .tc := ⟨.hbm, 66, rfl⟩
abbrev main_call2_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_cst : Ref sig .tc := ⟨.hbm, 94, rfl⟩
abbrev main_call3_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call4_cst : Ref sig .tc := ⟨.hbm, 122, rfl⟩
abbrev main_call4_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call5_cst : Ref sig .tc := ⟨.hbm, 129, rfl⟩
abbrev main_call5_v0 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S640000x1_S640000_n_0_0_1_wf : ScatterDims.WF S50000 S640000x1 S640000 [] [0] [0] 1
  dot_S50000x4_S4x128_S50000x128_1_0_0_1_n_n_wf : DotDims.WF S50000x4 S4x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LayerSpec.lean ====
/-
  The graph-convolution stack as a composition of whole-array stages, written once over the reference program's
  shapes and dimension records. A node's degree normaliser is (max 1 (number of edges naming it))^(-1/2); one
  message-passing step scales each node's features by its source normaliser, gathers them along the edges,
  sums them into the destination nodes and scales by the destination normaliser; a dense layer is
  x · W + b, followed (for the hidden layers) by max(·, 0).
-/
import proofs.«175336_j8830452760706_1_alg».proof.Proof.Gen.ReferenceIdeal
import Idealize.ShloMosaic.PureOps.Ideal

noncomputable section

namespace Cert.GConv

open Cert.ReferenceIdeal Cert.ReferenceIdeal.Gen Idealize.ShloMosaic Idealize.ShloMosaic.TcCoe Idealize.SL.Sem Idealize.ShloMosaic.StableHlo

variable {F : FTy → Type} [FloatOps F]

/-- The degree normaliser as a column: entry n is (max 1 (#{e | idx e = n}))^(-1/2). -/
def degNorm (idx : (⟨S640000, .i32⟩ : BufTy).Contents (Elt F)) : (⟨S50000x1, .f32⟩ : BufTy).Contents (Elt F) :=
  broadcastInDim S50000x1 ![0] bcast_S50000_S50000x1_0
    (Host.powf
      (maximumf (broadcastInDim S50000 ![] bcast_S_S50000 (id (constant S_ .f32 0x3F800000#32)))
        (Host.scatterAdd scatter_S50000_S640000x1_S640000_n_0_0_1
          (broadcastInDim S50000 ![] bcast_S_S50000 (constant S_ .f32 0x00000000#32))
          (broadcastInDim S640000x1 ![0] bcast_S640000_S640000x1_0 idx)
          (broadcastInDim S640000 ![] bcast_S_S640000 (constant S_ .f32 0x3F800000#32))))
      (broadcastInDim S50000 ![] bcast_S_S50000 (constant S_ .f32 0xBF000000#32)))

/-- One message-passing step: row n of the result is ndst n · Σ over edges e with dst e = n of (h · nsrc) at row src e
    (a negative source index counted from the end). -/
def aggregate (h : (⟨S50000x128, .f32⟩ : BufTy).Contents (Elt F))
    (nsrc ndst : (⟨S50000x1, .f32⟩ : BufTy).Contents (Elt F))
    (src dst : (⟨S640000, .i32⟩ : BufTy).Contents (Elt F)) : (⟨S50000x128, .f32⟩ : BufTy).Contents (Elt F) :=
  mulf
    (Host.scatterAdd scatter_S50000x128_S640000x1_S640000x128_1_0_0_1
      (broadcastInDim S50000x128 ![] bcast_S_S50000x128 (constant S_ .f32 0x00000000#32))
      (broadcastInDim S640000x1 ![0] bcast_S640000_S640000x1_0 dst)
      (Host.gather gather_S50000x128_S640000x1_S640000x128_1_0_n_n_0_1_1128
        (mulf h (broadcastInDim S50000x128 ![0, 1] bcast_S50000x1_S50000x128_0_1 nsrc))
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))
    (broadcastInDim S50000x128 ![0, 1] bcast_S50000x1_S50000x128_0_1 ndst)

/-- The embedding layer x · W + b, from 4 features to 128. -/
def denseIn (x : (⟨S50000x4, .f32⟩ : BufTy).Contents (Elt F)) (w : (⟨S4x128, .f32⟩ : BufTy).Contents (Elt F))
    (b : (⟨S128, .f32⟩ : BufTy).Contents (Elt F)) : (⟨S50000x128, .f32⟩ : BufTy).Contents (Elt F) :=
  addf (Host.dotGeneral dot_S50000x4_S4x128_S50000x128_1_0_0_1_n_n none x w)
    (broadcastInDim S50000x128 ![0, 1] bcast_S1x128_S50000x128_0_1 (broadcastInDim S1x128 ![1] bcast_S128_S1x128_1 b))

/-- A hidden layer max(x · W + b, 0), 128 features to 128. -/
def denseRelu (x : (⟨S50000x128, .f32⟩ : BufTy).Contents (Elt F)) (w : (⟨S128x128, .f32⟩ : BufTy).Contents (Elt F))
    (b : (⟨S128, .f32⟩ : BufTy).Contents (Elt F)) : (⟨S50000x128, .f32⟩ : BufTy).Contents (Elt F) :=
  maximumf
    (addf (Host.dotGeneral dot_S50000x128_S128x128_S50000x128_1_0_0_1_n_n none x w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The output layer x · W + b, 128 features to 1. -/
def denseOut (x : (⟨S50000x128, .f32⟩ : BufTy).Contents (Elt F)) (w : (⟨S128x1, .f32⟩ : BufTy).Contents (Elt F))
    (b : (⟨S1, .f32⟩ : BufTy).Contents (Elt F)) : (⟨S50000x1, .f32⟩ : BufTy).Contents (Elt F) :=
  addf (Host.dotGeneral dot_S50000x128_S128x1_S50000x1_1_0_0_1_n_n none x w)
    (broadcastInDim S50000x1 ![0, 1] bcast_S1x1_S50000x1_0_1 (broadcastInDim S1x1 ![1] bcast_S1_S1x1_1 b))

/-- Layer l's weight matrix and bias row out of the stacked parameters. -/
def weight0 (wg : (⟨S3x128x128, .f32⟩ : BufTy).Contents (Elt F)) : (⟨S128x128, .f32⟩ : BufTy).Contents (Elt F) :=
  shapeCast _ (extractStridedSlice S1x128x128 ![0, 0, 0] wg slices_S3x128x128_S1x128x128_0_0_0) shapeCasts_S1x128x128_S128x128
def weight1 (wg : (⟨S3x128x128, .f32⟩ : BufTy).Contents (Elt F)) : (⟨S128x128, .f32⟩ : BufTy).Contents (Elt F) :=
  shapeCast _ (extractStridedSlice S1x128x128 ![1, 0, 0] wg slices_S3x128x128_S1x128x128_1_0_0) shapeCasts_S1x128x128_S128x128
def weight2 (wg : (⟨S3x128x128, .f32⟩ : BufTy).Contents (Elt F)) : (⟨S128x128, .f32⟩ : BufTy).Contents (Elt F) :=
  shapeCast _ (extractStridedSlice S1x128x128 ![2, 0, 0] wg slices_S3x128x128_S1x128x128_2_0_0) shapeCasts_S1x128x128_S128x128
def bias0 (bg : (⟨S3x128, .f32⟩ : BufTy).Contents (Elt F)) : (⟨S128, .f32⟩ : BufTy).Contents (Elt F) :=
  shapeCast _ (extractStridedSlice S1x128 ![0, 0] bg slices_S3x128_S1x128_0_0) shapeCasts_S1x128_S128
def bias1 (bg : (⟨S3x128, .f32⟩ : BufTy).Contents (Elt F)) : (⟨S128, .f32⟩ : BufTy).Contents (Elt F) :=
  shapeCast _ (extractStridedSlice S1x128 ![1, 0] bg slices_S3x128_S1x128_1_0) shapeCasts_S1x128_S128
def bias2 (bg : (⟨S3x128, .f32⟩ : BufTy).Contents (Elt F)) : (⟨S128, .f32⟩ : BufTy).Contents (Elt F) :=
  shapeCast _ (extractStridedSlice S1x128 ![2, 0] bg slices_S3x128_S1x128_2_0) shapeCasts_S1x128_S128

/-- The whole model: embedding, three graph-convolution layers, the two-layer output head. -/
def model (a0 : (⟨S50000x4, .f32⟩ : BufTy).Contents (Elt F)) (a1 a2 : (⟨S640000, .i32⟩ : BufTy).Contents (Elt F))
    (a3 : (⟨S4x128, .f32⟩ : BufTy).Contents (Elt F)) (a4 : (⟨S128, .f32⟩ : BufTy).Contents (Elt F))
    (a5 : (⟨S3x128x128, .f32⟩ : BufTy).Contents (Elt F)) (a6 : (⟨S3x128, .f32⟩ : BufTy).Contents (Elt F))
    (a7 : (⟨S128x128, .f32⟩ : BufTy).Contents (Elt F)) (a8 : (⟨S128, .f32⟩ : BufTy).Contents (Elt F))
    (a9 : (⟨S128x1, .f32⟩ : BufTy).Contents (Elt F)) (a10 : (⟨S1, .f32⟩ : BufTy).Contents (Elt F)) :
    (⟨S50000x1, .f32⟩ : BufTy).Contents (Elt F) :=
  denseOut
    (denseRelu
      (denseRelu
        (aggregate
          (denseRelu
            (aggregate
              (denseRelu
                (aggregate (denseIn a0 a3 a4) (degNorm a1) (degNorm a2) a1 a2)
                (weight0 a5) (bias0 a6))
              (degNorm a1) (degNorm a2) a1 a2)
            (weight1 a5) (bias1 a6))
          (degNorm a1) (degNorm a2) a1 a2)
        (weight2 a5) (bias2 a6))
      a7 a8)
    a9 a10

end Cert.GConv

end
-- ==== Proof.HostStretches.lean ====
/-
  The kernel program's host stretches as stages of LayerSpec, over an arbitrary valuation of the buffers: the
  operations between two pallas_calls scale, gather, sum and scale again (one message-passing step of the
  previous layer's output) and cut the next layer's weights and bias out of the stacked parameters; the operations
  before the first pallas_call compute the two degree normalisers. The kernel's and the reference's dimension
  records are the same literals, so each equation closes by unfolding.
-/
import proofs.«175336_j8830452760706_1_alg».proof.Proof.Gen.KernelIdeal.Launch
import proofs.«175336_j8830452760706_1_alg».proof.Proof.LayerSpec
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-! ## Before the first pallas_call: the degree normalisers -/

theorem norm_src (W : Valuation τ sig (Elt F)) :
    StableHlo.after hostOps0_4 (StableHlo.after hostOps0_3 (StableHlo.after hostOps0_2 (StableHlo.after hostOps0_1 (StableHlo.after hostOps0 W)))) (Proc.devRef .tc main_v11)
      = Cert.GConv.degNorm (F := F) (W (Proc.devRef .tc main_arg1)) := by
  dsimp only [hostOps0, hostOps0_1, hostOps0_2, hostOps0_3, hostOps0_4]
  after_results_simp
  rfl

theorem norm_dst (W : Valuation τ sig (Elt F)) :
    StableHlo.after hostOps0_4 (StableHlo.after hostOps0_3 (StableHlo.after hostOps0_2 (StableHlo.after hostOps0_1 (StableHlo.after hostOps0 W)))) (Proc.devRef .tc main_v14)
      = Cert.GConv.degNorm (F := F) (W (Proc.devRef .tc main_arg2)) := by
  dsimp only [hostOps0, hostOps0_1, hostOps0_2, hostOps0_3, hostOps0_4]
  after_results_simp
  rfl

/-! ## Between the pallas_calls: one message-passing step and the next layer's parameters -/

theorem stretch1_x (W : Valuation τ sig (Elt F)) :
    StableHlo.after hostOps1 W (Proc.devRef .tc main_v29)
      = Cert.GConv.aggregate (F := F) (W (Proc.devRef .tc main_v15)) (W (Proc.devRef .tc main_v11)) (W (Proc.devRef .tc main_v14))
          (W (Proc.devRef .tc main_arg1)) (W (Proc.devRef .tc main_arg2)) := by
  dsimp only [hostOps1]
  after_results_simp
  rfl
theorem stretch1_w (W : Valuation τ sig (Elt F)) :
    StableHlo.after hostOps1 W (Proc.devRef .tc main_v31) = Cert.GConv.weight0 (F := F) (W (Proc.devRef .tc main_arg5)) := by
  dsimp only [hostOps1]
  after_results_simp
  rfl
theorem stretch1_b (W : Valuation τ sig (Elt F)) :
    StableHlo.after hostOps1 W (Proc.devRef .tc main_v33) = Cert.GConv.bias0 (F := F) (W (Proc.devRef .tc main_arg6)) := by
  dsimp only [hostOps1]
  after_results_simp
  rfl

theorem stretch2_x (W : Valuation τ sig (Elt F)) :
    StableHlo.after hostOps2 W (Proc.devRef .tc main_v48)
      = Cert.GConv.aggregate (F := F) (W (Proc.devRef .tc main_v34)) (W (Proc.devRef .tc main_v11)) (W (Proc.devRef .tc main_v14))
          (W (Proc.devRef .tc main_arg1)) (W (Proc.devRef .tc main_arg2)) := by
  dsimp only [hostOps2]
  after_results_simp
  rfl
theorem stretch2_w (W : Valuation τ sig (Elt F)) :
    StableHlo.after hostOps2 W (Proc.devRef .tc main_v50) = Cert.GConv.weight1 (F := F) (W (Proc.devRef .tc main_arg5)) := by
  dsimp only [hostOps2]
  after_results_simp
  rfl
theorem stretch2_b (W : Valuation τ sig (Elt F)) :
    StableHlo.after hostOps2 W (Proc.devRef .tc main_v52) = Cert.GConv.bias1 (F := F) (W (Proc.devRef .tc main_arg6)) := by
  dsimp only [hostOps2]
  after_results_simp
  rfl

theorem stretch3_x (W : Valuation τ sig (Elt F)) :
    StableHlo.after hostOps3 W (Proc.devRef .tc main_v67)
      = Cert.GConv.aggregate (F := F) (W (Proc.devRef .tc main_v53)) (W (Proc.devRef .tc main_v11)) (W (Proc.devRef .tc main_v14))
          (W (Proc.devRef .tc main_arg1)) (W (Proc.devRef .tc main_arg2)) := by
  dsimp only [hostOps3]
  after_results_simp
  rfl
theorem stretch3_w (W : Valuation τ sig (Elt F)) :
    StableHlo.after hostOps3 W (Proc.devRef .tc main_v69) = Cert.GConv.weight2 (F := F) (W (Proc.devRef .tc main_arg5)) := by
  dsimp only [hostOps3]
  after_results_simp
  rfl
theorem stretch3_b (W : Valuation τ sig (Elt F)) :
    StableHlo.after hostOps3 W (Proc.devRef .tc main_v71) = Cert.GConv.bias2 (F := F) (W (Proc.devRef .tc main_arg6)) := by
  dsimp only [hostOps3]
  after_results_simp
  rfl

end Cert.KernelIdeal.Chain

end
-- ==== Proof.BlockOps.lean ====
/-
  What a kernel body computes on one block, read at an index over the extended reals: the block's matrix product into
  a zero accumulator is the sum over the contracted axis, and the bias vector, lifted to a row and broadcast along the
  block's rows, reads the bias at the column.
-/
import proofs.«175336_j8830452760706_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Blk

open Cert.KernelIdeal Cert.KernelIdeal.Gen Idealize.ShloMosaic Idealize.ShloMosaic.TcCoe Idealize.SL.Sem
open Idealize.ShloMosaic.ValueIdx

/-! ## The hidden layers' block: [5000,128] × [128,128] -/

theorem lhsH_0 (y : S5000x128.Idx) (q : dot_S5000x128_S128x128_S5000x128_1_0_0_1_n_n.contr.Idx) :
    (dot_S5000x128_S128x128_S5000x128_1_0_0_1_n_n.lhsIdx y q 0).val = (y 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsH_1 (y : S5000x128.Idx) (q : dot_S5000x128_S128x128_S5000x128_1_0_0_1_n_n.contr.Idx) :
    (dot_S5000x128_S128x128_S5000x128_1_0_0_1_n_n.lhsIdx y q 1).val = (q ⟨0, by decide⟩).val :=
  dot_S5000x128_S128x128_S5000x128_1_0_0_1_n_n.lhsIdx_val_of_single rfl y q
theorem rhsH_0 (y : S5000x128.Idx) (q : dot_S5000x128_S128x128_S5000x128_1_0_0_1_n_n.contr.Idx) :
    (dot_S5000x128_S128x128_S5000x128_1_0_0_1_n_n.rhsIdx y q 0).val = (q ⟨0, by decide⟩).val :=
  dot_S5000x128_S128x128_S5000x128_1_0_0_1_n_n.rhsIdx_val_of_single rfl y q
theorem rhsH_1 (y : S5000x128.Idx) (q : dot_S5000x128_S128x128_S5000x128_1_0_0_1_n_n.contr.Idx) :
    (dot_S5000x128_S128x128_S5000x128_1_0_0_1_n_n.rhsIdx y q 1).val = (y 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `y 0` of the block, column `k`. -/
abbrev rowH (y : S5000x128.Idx) (k : Fin 128) : S5000x128.Idx := fun a => match a with
  | ⟨0, _⟩ => ⟨(y 0).val, (y 0).isLt⟩
  | ⟨1, _⟩ => ⟨k.val, k.isLt⟩
/-- Row `k` of the weights, column `y 1`. -/
abbrev colH (y : S5000x128.Idx) (k : Fin 128) : S128x128.Idx := fun a => match a with
  | ⟨0, _⟩ => ⟨k.val, k.isLt⟩
  | ⟨1, _⟩ => ⟨(y 1).val, (y 1).isLt⟩

theorem matmulH_apply (x : FVec Ideal S5000x128 .bf16) (w : FVec Ideal S128x128 .bf16) (y : S5000x128.Idx) :
    matmul dot_S5000x128_S128x128_S5000x128_1_0_0_1_n_n none x w (constant (F := Ideal) S5000x128 .f32 0x00000000#32) y
      = ∑ k : Fin 128, x (rowH y k) * w (colH y k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = rowH y k := funext fun a => Fin.ext (by
    match a with
    | ⟨0, _⟩ => exact lhsH_0 _ _
    | ⟨1, _⟩ => exact (lhsH_1 _ _).trans hk)
  have er : dot_S5000x128_S128x128_S5000x128_1_0_0_1_n_n.rhsIdx y ((ValueIdx.contrEquiv1 dot_S5000x128_S128x128_S5000x128_1_0_0_1_n_n 128 rfl rfl).symm k) = colH y k := funext fun a => Fin.ext (by
    match a with
    | ⟨0, _⟩ => exact (rhsH_0 _ _).trans hk
    | ⟨1, _⟩ => exact rhsH_1 _ _)
  rw [el, er]

/-- The bias entry a block index selects: its column. -/
abbrev biasH (y : S5000x128.Idx) : S128.Idx := fun a => match a with
  | ⟨0, _⟩ => ⟨(y 1).val, (y 1).isLt⟩

theorem biasH_apply (b : FVec Ideal S128 .f32) (y : S5000x128.Idx) :
    broadcastTo S5000x128 (shapeCast S1x128 b shapeCasts_S128_S1x128) broadcasts_S1x128_S5000x128 y = b (biasH y) := by
  rw [broadcastTo_apply _ broadcasts_S1x128_S5000x128 y (fun a => match a with | ⟨0, _⟩ => ⟨0, Nat.one_pos⟩ | ⟨1, _⟩ => ⟨(y 1).val, (y 1).isLt⟩)
    (fun a => match a with
      | ⟨0, _⟩ => by show 0 = if (1 : Nat) = 1 then 0 else (y 0).val; rw [if_pos rfl]
      | ⟨1, _⟩ => by show (y 1).val = if (128 : Nat) = 1 then 0 else (y 1).val; rw [if_neg (by decide)])]
  rw [shapeCast_addUnit_apply ![128] b shapeCasts_S128_S1x128]
  exact congrArg b (funext fun a => by match a with | ⟨0, _⟩ => rfl)

/-! ## The embedding layer's block: [5000,4] × [4,128] -/

theorem lhsE_0 (y : S5000x128.Idx) (q : dot_S5000x4_S4x128_S5000x128_1_0_0_1_n_n.contr.Idx) :
    (dot_S5000x4_S4x128_S5000x128_1_0_0_1_n_n.lhsIdx y q 0).val = (y 0).val := by
  unfold DotDims.lhsIdx
  rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
  rfl
theorem lhsE_1 (y : S5000x128.Idx) (q : dot_S5000x4_S4x128_S5000x128_1_0_0_1_n_n.contr.Idx) :
    (dot_S5000x4_S4x128_S5000x128_1_0_0_1_n_n.lhsIdx y q 1).val = (q ⟨0, by decide⟩).val :=
  dot_S5000x4_S4x128_S5000x128_1_0_0_1_n_n.lhsIdx_val_of_single rfl y q
theorem rhsE_0 (y : S5000x128.Idx) (q : dot_S5000x4_S4x128_S5000x128_1_0_0_1_n_n.contr.Idx) :
    (dot_S5000x4_S4x128_S5000x128_1_0_0_1_n_n.rhsIdx y q 0).val = (q ⟨0, by decide⟩).val :=
  dot_S5000x4_S4x128_S5000x128_1_0_0_1_n_n.rhsIdx_val_of_single rfl y q
theorem rhsE_1 (y : S5000x128.Idx) (q : dot_S5000x4_S4x128_S5000x128_1_0_0_1_n_n.contr.Idx) :
    (dot_S5000x4_S4x128_S5000x128_1_0_0_1_n_n.rhsIdx y q 1).val = (y 1).val := by
  unfold DotDims.rhsIdx
  rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
  rfl

/-- Row `y 0` of the block, column `k`. -/
abbrev rowE (y : S5000x128.Idx) (k : Fin 4) : S5000x4.Idx := fun a => match a with
  | ⟨0, _⟩ => ⟨(y 0).val, (y 0).isLt⟩
  | ⟨1, _⟩ => ⟨k.val, k.isLt⟩
/-- Row `k` of the weights, column `y 1`. -/
abbrev colE (y : S5000x128.Idx) (k : Fin 4) : S4x128.Idx := fun a => match a with
  | ⟨0, _⟩ => ⟨k.val, k.isLt⟩
  | ⟨1, _⟩ => ⟨(y 1).val, (y 1).isLt⟩

theorem matmulE_apply (x : FVec Ideal S5000x4 .bf16) (w : FVec Ideal S4x128 .bf16) (y : S5000x128.Idx) :
    matmul dot_S5000x4_S4x128_S5000x128_1_0_0_1_n_n none x w (constant (F := Ideal) S5000x128 .f32 0x00000000#32) y
      = ∑ k : Fin 4, x (rowE y k) * w (colE y k) := by
  simp only [matmul]
  rw [Ideal.matmul_constant_zero_apply, ← Equiv.sum_comp (ValueIdx.contrEquiv1 dot_S5000x4_S4x128_S5000x128_1_0_0_1_n_n 4 rfl rfl).symm]
  refine Finset.sum_congr rfl fun k _ => ?_
  have hk := ValueIdx.contrEquiv1_symm_val dot_S5000x4_S4x128_S5000x128_1_0_0_1_n_n 4 rfl rfl k
  have el : dot_S5000x4_S4x128_S5000x128_1_0_0_1_n_n.lhsIdx y ((ValueIdx.contrEquiv1 dot_S5000x4_S4x128_S5000x128_1_0_0_1_n_n 4 rfl rfl).symm k) = rowE y k := funext fun a => Fin.ext (by
    match a with
    | ⟨0, _⟩ => exact lhsE_0 _ _
    | ⟨1, _⟩ => exact (lhsE_1 _ _).trans hk)
  have er : dot_S5000x4_S4x128_S5000x128_1_0_0_1_n_n.rhsIdx y ((ValueIdx.contrEquiv1 dot_S5000x4_S4x128_S5000x128_1_0_0_1_n_n 4 rfl rfl).symm k) = colE y k := funext fun a => Fin.ext (by
    match a with
    | ⟨0, _⟩ => exact (rhsE_0 _ _).trans hk
    | ⟨1, _⟩ => exact rhsE_1 _ _)
  rw [el, er]

/-! ## The output layer's block: [5000,128] × [128,1] -/

theorem lhsO_0 (y : S5000x1.Idx) (q : dot_S5000x128_S128x1_S5000x1_1_0_0_1_n_n.contr.Idx) :
    (dot_S5000x128_S128x1_S5000x1_1_0_0_1_n_n.lhsIdx y q 0).val = (y 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhsO_1 (y : S5000x1.Idx) (q : dot_S5000x128_S128x1_S5000x1_1_0_0_1_n_n.contr.Idx) :
    (dot_S5000x128_S128x1_S5000x1_1_0_0_1_n_n.lhsIdx y q 1).val = (q ⟨0, by decide⟩).val :=
  dot_S5000x128_S128x1_S5000x1_1_0_0_1_n_n.lhsIdx_val_of_single rfl y q
theorem rhsO_0 (y : S5000x1.Idx) (q : dot_S5000x128_S128x1_S5000x1_1_0_0_1_n_n.contr.Idx) :
    (dot_S5000x128_S128x1_S5000x1_1_0_0_1_n_n.rhsIdx y q 0).val = (q ⟨0, by decide⟩).val :=
  dot_S5000x128_S128x1_S5000x1_1_0_0_1_n_n.rhsIdx_val_of_single rfl y q
theorem rhsO_1 (y : S5000x1.Idx) (q : dot_S5000x128_S128x1_S5000x1_1_0_0_1_n_n.contr.Idx) :
    (dot_S5000x128_S128x1_S5000x1_1_0_0_1_n_n.rhsIdx y q 1).val = (y 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Row `y 0` of the block, column `k`. -/
abbrev rowO (y : S5000x1.Idx) (k : Fin 128) : S5000x128.Idx := fun a => match a with
  | ⟨0, _⟩ => ⟨(y 0).val, (y 0).isLt⟩
  | ⟨1, _⟩ => ⟨k.val, k.isLt⟩
/-- Row `k` of the weights, column `y 1`. -/
abbrev colO (y : S5000x1.Idx) (k : Fin 128) : S128x1.Idx := fun a => match a with
  | ⟨0, _⟩ => ⟨k.val, k.isLt⟩
  | ⟨1, _⟩ => ⟨(y 1).val, (y 1).isLt⟩

theorem matmulO_apply (x : FVec Ideal S5000x128 .bf16) (w : FVec Ideal S128x1 .bf16) (y : S5000x1.Idx) :
    matmul dot_S5000x128_S128x1_S5000x1_1_0_0_1_n_n none x w (constant (F := Ideal) S5000x1 .f32 0x00000000#32) y
      = ∑ k : Fin 128, x (rowO y k) * w (colO y k) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx y ((ValueIdx.contrEquiv1 dot_S5000x128_S128x1_S5000x1_1_0_0_1_n_n 128 rfl rfl).symm k) = rowO y k := funext fun a => Fin.ext (by
    match a with
    | ⟨0, _⟩ => exact lhsO_0 _ _
    | ⟨1, _⟩ => exact (lhsO_1 _ _).trans hk)
  have er : dot_S5000x128_S128x1_S5000x1_1_0_0_1_n_n.rhsIdx y ((ValueIdx.contrEquiv1 dot_S5000x128_S128x1_S5000x1_1_0_0_1_n_n 128 rfl rfl).symm k) = colO y k := funext fun a => Fin.ext (by
    match a with
    | ⟨0, _⟩ => exact (rhsO_0 _ _).trans hk
    | ⟨1, _⟩ => exact rhsO_1 _ _)
  rw [el, er]

/-- The output layer's single bias entry. -/
abbrev biasO (y : S5000x1.Idx) : S1.Idx := fun a => match a with
  | ⟨0, _⟩ => ⟨0, Nat.one_pos⟩

theorem biasO_apply (b : FVec Ideal S1 .f32) (y : S5000x1.Idx) :
    broadcastTo S5000x1 (shapeCast S1x1 b shapeCasts_S1_S1x1) broadcasts_S1x1_S5000x1 y = b (biasO y) := by
  rw [broadcastTo_apply _ broadcasts_S1x1_S5000x1 y (fun a => match a with | ⟨0, _⟩ => ⟨0, Nat.one_pos⟩ | ⟨1, _⟩ => ⟨0, Nat.one_pos⟩)
    (fun a => match a with
      | ⟨0, _⟩ => by show 0 = if (1 : Nat) = 1 then 0 else (y 0).val; rw [if_pos rfl]
      | ⟨1, _⟩ => by show 0 = if (1 : Nat) = 1 then 0 else (y 1).val; rw [if_pos rfl])]
  rw [shapeCast_addUnit_apply ![1] b shapeCasts_S1_S1x1]
  exact congrArg b (funext fun a => by match a with | ⟨0, _⟩ => rfl)

end Cert.KernelIdeal.Blk

end
-- ==== Proof.Payloads.lean ====
/-
  Each kernel body's stored value, read at an index of its block over the extended reals: the narrowing to bf16 is
  the identity there, so the value is Σ_k x(r, k) · w(k, j) + b(j), and max(·, 0) of it for the hidden layers.
-/
import proofs.«175336_j8830452760706_1_alg».proof.Proof.Gen.KernelIdeal.Skeleton
import proofs.«175336_j8830452760706_1_alg».proof.Proof.BlockOps

noncomputable section

namespace Cert.KernelIdeal.Blk

open Cert.KernelIdeal Cert.KernelIdeal.Gen Idealize.ShloMosaic Idealize.ShloMosaic.TcCoe Idealize.SL.Sem
open Idealize.ShloMosaic.ValueIdx

/-- The embedding body's value. -/
theorem pay0_apply (x0 : Vec Ideal S5000x4 .f32) (x1 : Vec Ideal S4x128 .f32) (x2 : Vec Ideal S128 .f32) (y : S5000x128.Idx) :
    k0_pay1 (F := Ideal) x0 x1 x2 y = (∑ k : Fin 4, x0 (rowE y k) * x1 (colE y k)) + x2 (biasH y) := by
  unfold k0_pay1
  rw [addf_apply, matmulE_apply, biasH_apply]
  rfl

/-- A hidden body's value (the three graph-convolution layers' bodies have this text). -/
theorem pay1_apply (x0 : Vec Ideal S5000x128 .f32) (x1 : Vec Ideal S128x128 .f32) (x2 : Vec Ideal S128 .f32) (y : S5000x128.Idx) :
    k1_pay1 (F := Ideal) x0 x1 x2 y
      = max ((∑ k : Fin 128, x0 (rowH y k) * x1 (colH y k)) + x2 (biasH y)) (Ideal.ofBits .f32 0x00000000#32) := by
  unfold k1_pay1
  rw [maximumf_apply, addf_apply, matmulH_apply, biasH_apply]
  simp only [shapeCast_self]
  rfl

theorem pay2_apply (x0 : Vec Ideal S5000x128 .f32) (x1 : Vec Ideal S128x128 .f32) (x2 : Vec Ideal S128 .f32) (y : S5000x128.Idx) :
    k2_pay1 (F := Ideal) x0 x1 x2 y
      = max ((∑ k : Fin 128, x0 (rowH y k) * x1 (colH y k)) + x2 (biasH y)) (Ideal.ofBits .f32 0x00000000#32) := by
  unfold k2_pay1
  rw [maximumf_apply, addf_apply, matmulH_apply, biasH_apply]
  simp only [shapeCast_self]
  rfl

theorem pay3_apply (x0 : Vec Ideal S5000x128 .f32) (x1 : Vec Ideal S128x128 .f32) (x2 : Vec Ideal S128 .f32) (y : S5000x128.Idx) :
    k3_pay1 (F := Ideal) x0 x1 x2 y
      = max ((∑ k : Fin 128, x0 (rowH y k) * x1 (colH y k)) + x2 (biasH y)) (Ideal.ofBits .f32 0x00000000#32) := by
  unfold k3_pay1
  rw [maximumf_apply, addf_apply, matmulH_apply, biasH_apply]
  simp only [shapeCast_self]
  rfl

/-- The first output-head body's value. -/
theorem pay4_apply (x0 : Vec Ideal S5000x128 .f32) (x1 : Vec Ideal S128x128 .f32) (x2 : Vec Ideal S128 .f32) (y : S5000x128.Idx) :
    k4_pay1 (F := Ideal) x0 x1 x2 y
      = max ((∑ k : Fin 128, x0 (rowH y k) * x1 (colH y k)) + x2 (biasH y)) (Ideal.ofBits .f32 0x00000000#32) := by
  unfold k4_pay1
  rw [maximumf_apply, addf_apply, matmulH_apply, biasH_apply]
  simp only [shapeCast_self]
  rfl

/-- The last body's value. -/
theorem pay5_apply (x0 : Vec Ideal S5000x128 .f32) (x1 : Vec Ideal S128x1 .f32) (x2 : Vec Ideal S1 .f32) (y : S5000x1.Idx) :
    k5_pay1 (F := Ideal) x0 x1 x2 y = (∑ k : Fin 128, x0 (rowO y k) * x1 (colO y k)) + x2 (biasO y) := by
  unfold k5_pay1
  rw [addf_apply, matmulO_apply, biasO_apply]
  simp only [shapeCast_self]
  rfl

end Cert.KernelIdeal.Blk

end
-- ==== Proof.DenseAt.lean ====
/-
  The dense layers of LayerSpec read at an index, over the extended reals: entry (n, j) of x · W + b is
  Σ_k x(n, k) · W(k, j) + b(j), and a hidden layer takes the maximum of that with 0. The row and column
  index functions are the ones the reference's read lemmas use.
-/
import proofs.«175336_j8830452760706_1_alg».proof.Proof.Gen.ReferenceIdeal.Read
import proofs.«175336_j8830452760706_1_alg».proof.Proof.LayerSpec
import Idealize.ShloMosaic.Lib.ValueIdx
import Idealize.ShloMosaic.Lib.Pipeline.Value
import Idealize.ShloMosaic.PureOps.Ideal.Laws

noncomputable section

namespace Cert.GConv

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The host's matrix product over the record of `in`, read at an output index: the sum over the contracted axis. -/
theorem dot_in_apply (x : FVec Ideal S50000x4 .f32) (w : FVec Ideal S4x128 .f32) (i : S50000x128.Idx) :
    Host.dotGeneral (F := Ideal) dot_S50000x4_S4x128_S50000x128_1_0_0_1_n_n none x w i
      = ∑ k : Fin 4, x (lidx_main_v15 i k) * w (ridx_main_v15 i k) := by
  simp only [Host.dotGeneral]
  rw [Ideal.dotGeneral_apply, ← Equiv.sum_comp (ValueIdx.contrEquiv1 dot_S50000x4_S4x128_S50000x128_1_0_0_1_n_n 4 rfl rfl).symm]
  refine Finset.sum_congr rfl fun k _ => ?_
  have hk := ValueIdx.contrEquiv1_symm_val dot_S50000x4_S4x128_S50000x128_1_0_0_1_n_n 4 rfl rfl k
  have el : dot_S50000x4_S4x128_S50000x128_1_0_0_1_n_n.lhsIdx i ((ValueIdx.contrEquiv1 dot_S50000x4_S4x128_S50000x128_1_0_0_1_n_n 4 rfl rfl).symm k) = lidx_main_v15 i k := funext fun a => Fin.ext (by
    match a with
    | ⟨0, _⟩ => exact lhs_main_v15_0 _ _
    | ⟨1, _⟩ => exact (lhs_main_v15_1 _ _).trans hk)
  have er : dot_S50000x4_S4x128_S50000x128_1_0_0_1_n_n.rhsIdx i ((ValueIdx.contrEquiv1 dot_S50000x4_S4x128_S50000x128_1_0_0_1_n_n 4 rfl rfl).symm k) = ridx_main_v15 i k := funext fun a => Fin.ext (by
    match a with
    | ⟨0, _⟩ => exact (rhs_main_v15_0 _ _).trans hk
    | ⟨1, _⟩ => exact rhs_main_v15_1 _ _)
  rw [el, er]

/-- The host's matrix product over the record of `hidden`, read at an output index: the sum over the contracted axis. -/
theorem dot_hidden_apply (x : FVec Ideal S50000x128 .f32) (w : FVec Ideal S128x128 .f32) (i : S50000x128.Idx) :
    Host.dotGeneral (F := Ideal) dot_S50000x128_S128x128_S50000x128_1_0_0_1_n_n none x w i
      = ∑ k : Fin 128, x (lidx_main_v35 i k) * w (ridx_main_v35 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v35 i k := funext fun a => Fin.ext (by
    match a with
    | ⟨0, _⟩ => exact lhs_main_v35_0 _ _
    | ⟨1, _⟩ => exact (lhs_main_v35_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v35 i k := funext fun a => Fin.ext (by
    match a with
    | ⟨0, _⟩ => exact (rhs_main_v35_0 _ _).trans hk
    | ⟨1, _⟩ => exact rhs_main_v35_1 _ _)
  rw [el, er]

/-- The host's matrix product over the record of `out`, read at an output index: the sum over the contracted axis. -/
theorem dot_out_apply (x : FVec Ideal S50000x128 .f32) (w : FVec Ideal S128x1 .f32) (i : S50000x1.Idx) :
    Host.dotGeneral (F := Ideal) dot_S50000x128_S128x1_S50000x1_1_0_0_1_n_n none x w i
      = ∑ k : Fin 128, x (lidx_main_v93 i k) * w (ridx_main_v93 i k) := by
  simp only [Host.dotGeneral]
  rw [Ideal.dotGeneral_apply, ← Equiv.sum_comp (ValueIdx.contrEquiv1 dot_S50000x128_S128x1_S50000x1_1_0_0_1_n_n 128 rfl rfl).symm]
  refine Finset.sum_congr rfl fun k _ => ?_
  have hk := ValueIdx.contrEquiv1_symm_val dot_S50000x128_S128x1_S50000x1_1_0_0_1_n_n 128 rfl rfl k
  have el : dot_S50000x128_S128x1_S50000x1_1_0_0_1_n_n.lhsIdx i ((ValueIdx.contrEquiv1 dot_S50000x128_S128x1_S50000x1_1_0_0_1_n_n 128 rfl rfl).symm k) = lidx_main_v93 i k := funext fun a => Fin.ext (by
    match a with
    | ⟨0, _⟩ => exact lhs_main_v93_0 _ _
    | ⟨1, _⟩ => exact (lhs_main_v93_1 _ _).trans hk)
  have er : dot_S50000x128_S128x1_S50000x1_1_0_0_1_n_n.rhsIdx i ((ValueIdx.contrEquiv1 dot_S50000x128_S128x1_S50000x1_1_0_0_1_n_n 128 rfl rfl).symm k) = ridx_main_v93 i k := funext fun a => Fin.ext (by
    match a with
    | ⟨0, _⟩ => exact (rhs_main_v93_0 _ _).trans hk
    | ⟨1, _⟩ => exact rhs_main_v93_1 _ _)
  rw [el, er]

/-- The bias entry a 128-wide row index selects: its column. -/
abbrev colOf (i : S50000x128.Idx) : S128.Idx := fun a => match a with
  | ⟨0, _⟩ => ⟨(i 1).val, (i 1).isLt⟩
/-- The single bias entry of the output layer. -/
abbrev colOf1 (i : S50000x1.Idx) : S1.Idx := fun a => match a with
  | ⟨0, _⟩ => ⟨0, Nat.one_pos⟩

/-- A 128-vector broadcast along the rows, read at an index. -/
theorem biasRow_apply (b : (⟨S128, .f32⟩ : BufTy).Contents (Elt Ideal)) (i : S50000x128.Idx) :
    broadcastInDim S50000x128 ![0, 1] bcast_S1x128_S50000x128_0_1 (broadcastInDim S1x128 ![1] bcast_S128_S1x128_1 b) i = b (colOf i) := by
  show val_main_v17 (F := Ideal) b i = _
  rw [val_main_v17_apply, val_main_v16_apply]
  exact congrArg b (funext fun a => by match a with | ⟨0, _⟩ => rfl)

/-- The 1-vector of the output layer broadcast along the rows, read at an index. -/
theorem biasRow1_apply (b : (⟨S1, .f32⟩ : BufTy).Contents (Elt Ideal)) (i : S50000x1.Idx) :
    broadcastInDim S50000x1 ![0, 1] bcast_S1x1_S50000x1_0_1 (broadcastInDim S1x1 ![1] bcast_S1_S1x1_1 b) i = b (colOf1 i) := by
  show val_main_v95 (F := Ideal) b i = _
  rw [val_main_v95_apply, val_main_v94_apply]
  exact congrArg b (funext fun a => by match a with | ⟨0, _⟩ => rfl)

theorem denseIn_apply (x : (⟨S50000x4, .f32⟩ : BufTy).Contents (Elt Ideal)) (w : (⟨S4x128, .f32⟩ : BufTy).Contents (Elt Ideal))
    (b : (⟨S128, .f32⟩ : BufTy).Contents (Elt Ideal)) (i : S50000x128.Idx) :
    denseIn (F := Ideal) x w b i = (∑ k : Fin 4, x (lidx_main_v15 i k) * w (ridx_main_v15 i k)) + b (colOf i) := by
  unfold denseIn
  rw [addf_apply, dot_in_apply, biasRow_apply]

theorem denseRelu_apply (x : (⟨S50000x128, .f32⟩ : BufTy).Contents (Elt Ideal)) (w : (⟨S128x128, .f32⟩ : BufTy).Contents (Elt Ideal))
    (b : (⟨S128, .f32⟩ : BufTy).Contents (Elt Ideal)) (i : S50000x128.Idx) :
    denseRelu (F := Ideal) x w b i
      = max ((∑ k : Fin 128, x (lidx_main_v35 i k) * w (ridx_main_v35 i k)) + b (colOf i)) (Ideal.ofBits .f32 0x00000000#32) := by
  unfold denseRelu
  rw [maximumf_apply, addf_apply, dot_hidden_apply, biasRow_apply]
  rfl

theorem denseOut_apply (x : (⟨S50000x128, .f32⟩ : BufTy).Contents (Elt Ideal)) (w : (⟨S128x1, .f32⟩ : BufTy).Contents (Elt Ideal))
    (b : (⟨S1, .f32⟩ : BufTy).Contents (Elt Ideal)) (i : S50000x1.Idx) :
    denseOut (F := Ideal) x w b i = (∑ k : Fin 128, x (lidx_main_v93 i k) * w (ridx_main_v93 i k)) + b (colOf1 i) := by
  unfold denseOut
  rw [addf_apply, dot_out_apply, biasRow1_apply]

end Cert.GConv

end
-- ==== Proof.Region0.lean ====
/-
  The embedding layer's pallas_call over its ten row blocks: what grid point t writes back is block t of
  x · W + b (4 features to 128) of the whole arrays as the region finds them; the ten blocks cover the output, so
  the output array after the region is that function of the three input arrays.
-/
import proofs.«175336_j8830452760706_1_alg».proof.Proof.Gen.KernelIdeal.Frame
import proofs.«175336_j8830452760706_1_alg».proof.Proof.Payloads
import proofs.«175336_j8830452760706_1_alg».proof.Proof.DenseAt
import Idealize.ShloMosaic.Lib.Pipeline.Value

set_option maxRecDepth 16384

noncomputable section

namespace Cert.KernelIdeal.Region0

open Cert.KernelIdeal Cert.KernelIdeal.Gen Cert.KernelIdeal.Blk
open Idealize.ShloMosaic Idealize.ShloMosaic.TcCoe Idealize.SL.Sem
open Idealize.ShloMosaic.Pipeline (Dat Cfg Window)
open Cert.ReferenceIdeal.Read (lidx_main_v15 ridx_main_v15)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input rows move with the output rows; weights and bias stay at block 0. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) < 10 :=
  (by decide +kernel : ∀ t : Fin grid0.N, _)

/-- Every row block is some point's. -/
theorem idx_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the embedding layer of the arrays as the region finds them. -/
theorem flushed (c : Dev nD) (t : Fin cfg0.N) :
    (dat0 (F := Ideal) V c).flushed 3 t = ((cfg0.win 3).blk t).view.read (Elt Ideal)
      (Cert.GConv.denseIn (F := Ideal) (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S5000x4) hz2, View.ld_unit_zero (S := S4x128) hz2, View.ld_unit_zero (S := S128) hz1]
  obtain ⟨e0, e1, e2, e3, e4, e5, e6⟩ := idx_facts t
  funext y
  refine (pay0_apply _ _ _ y).trans ?_
  refine Eq.trans ?_ (Cert.GConv.denseIn_apply _ _ _ _).symm
  have hx : ∀ k : Fin 4, iblk0 V c 0 t (rowE y k) = V c main_arg0 (lidx_main_v15 (((cfg0.win 3).blk t).view.emb y) k) := fun k => by
    show V c main_arg0 (((cfg0.win 0).blk t).view.emb (rowE y k)) = _
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 4 + 1 * k.val = k.val; omega
  have hw : ∀ k : Fin 4, iblk0 V c 1 t (colE y k) = V c main_arg3 (ridx_main_v15 (((cfg0.win 3).blk t).view.emb y) k) := fun k => by
    show V c main_arg3 (((cfg0.win 1).blk t).view.emb (colE y k)) = _
    refine congrArg _ (funext fun a => Fin.ext ?_)
    match a with
    | ⟨0, _⟩ => show win0_1.index t (0 : Fin 2) * 4 + 1 * k.val = k.val; omega
    | ⟨1, _⟩ => show win0_1.index t (1 : Fin 2) * 128 + 1 * (y 1).val = win0_3.index t (1 : Fin 2) * 128 + 1 * (y 1).val; omega
  have hb : iblk0 V c 2 t (biasH y) = V c main_arg4 (Cert.GConv.colOf (((cfg0.win 3).blk t).view.emb y)) := by
    show V c main_arg4 (((cfg0.win 2).blk t).view.emb (biasH y)) = _
    refine congrArg _ (funext fun a => Fin.ext ?_)
    match a with
    | ⟨0, _⟩ => show win0_2.index t (0 : Fin 1) * 128 + 1 * (y 1).val = win0_3.index t (1 : Fin 2) * 128 + 1 * (y 1).val; omega
  rw [hb]
  refine congrArg (fun s => s + _) (Finset.sum_congr rfl fun k _ => ?_)
  rw [hx k, hw k]

/-- An index of the output array is in point `t`'s block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- The ten row blocks cover the output array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region. -/
theorem result (c : Dev nD) :
    (dat0 (F := Ideal) V c).arrAt 3 cfg0.N
      = Cert.GConv.denseIn (F := Ideal) (V c main_arg0) (V c main_arg3) (V c main_arg4) :=
  (dat0 (F := Ideal) V c).arrAt_eq_of_cover 3 _ (fun t _ => flushed V c t) cover

end Cert.KernelIdeal.Region0

end
-- ==== Proof.Region1.lean ====
/-
  Hidden layer 1's pallas_call over its ten row blocks: what grid point t writes back is block t of
  max(x · W + b, 0) of the whole arrays as the region finds them; the ten blocks cover the output, so the output
  array after the region is that function of the three input arrays.
-/
import proofs.«175336_j8830452760706_1_alg».proof.Proof.Gen.KernelIdeal.Frame
import proofs.«175336_j8830452760706_1_alg».proof.Proof.Payloads
import proofs.«175336_j8830452760706_1_alg».proof.Proof.DenseAt
import Idealize.ShloMosaic.Lib.Pipeline.Value

set_option maxRecDepth 16384

noncomputable section

namespace Cert.KernelIdeal.Region1

open Cert.KernelIdeal Cert.KernelIdeal.Gen Cert.KernelIdeal.Blk
open Idealize.ShloMosaic Idealize.ShloMosaic.TcCoe Idealize.SL.Sem
open Idealize.ShloMosaic.Pipeline (Dat Cfg Window)
open Cert.ReferenceIdeal.Read (lidx_main_v35 ridx_main_v35)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input rows move with the output rows; weights and bias stay at block 0. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 1) = 0 ∧ win1_3.index t (1 : Fin 2) = 0 ∧ win1_3.index t (0 : Fin 2) < 10 :=
  (by decide +kernel : ∀ t : Fin grid1.N, _)

/-- Every row block is some point's. -/
theorem idx_onto : ∀ q : Fin 10, ∃ t : Fin cfg1.N, win1_3.index t = ![q.val, 0] :=
  (by decide +kernel : ∀ q : Fin 10, ∃ t : Fin grid1.N, win1_3.index t = ![q.val, 0])

/-- What point `t` writes back is block `t` of the dense layer of the arrays as the region finds them. -/
theorem flushed (c : Dev nD) (t : Fin cfg1.N) :
    (dat1 (F := Ideal) V c).flushed 3 t = ((cfg1.win 3).blk t).view.read (Elt Ideal)
      (Cert.GConv.denseRelu (F := Ideal) (V c main_v29) (V c main_v31) (V c main_v33)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext y
  refine (pay1_apply _ _ _ y).trans ?_
  refine Eq.trans ?_ (Cert.GConv.denseRelu_apply _ _ _ _).symm
  have hx : ∀ k : Fin 128, iblk1 V c 0 t (rowH y k) = V c main_v29 (lidx_main_v35 (((cfg1.win 3).blk t).view.emb y) k) := fun k => by
    show V c main_v29 (((cfg1.win 0).blk t).view.emb (rowH y k)) = _
    refine congrArg _ (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  have hw : ∀ k : Fin 128, iblk1 V c 1 t (colH y k) = V c main_v31 (ridx_main_v35 (((cfg1.win 3).blk t).view.emb y) k) := fun k => by
    show V c main_v31 (((cfg1.win 1).blk t).view.emb (colH y k)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (y 1).val = win1_3.index t (1 : Fin 2) * 128 + 1 * (y 1).val; omega
  have hb : iblk1 V c 2 t (biasH y) = V c main_v33 (Cert.GConv.colOf (((cfg1.win 3).blk t).view.emb y)) := by
    show V c main_v33 (((cfg1.win 2).blk t).view.emb (biasH y)) = _
    refine congrArg _ (funext fun a => Fin.ext ?_)
    match a with
    | ⟨0, _⟩ => show win1_2.index t (0 : Fin 1) * 128 + 1 * (y 1).val = win1_3.index t (1 : Fin 2) * 128 + 1 * (y 1).val; omega
  rw [hb]
  refine congrArg (fun s => max (s + _) _) (Finset.sum_congr rfl fun k _ => ?_)
  rw [hx k, hw k]

/-- An index of the output array is in point `t`'s block iff each coordinate is in the block's range. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v34).slice (win1_3.rect t)).set ↔ _
  rw [View.set_slice_whole, Rect.mem_set_unit]
  exact Iff.rfl

/-- The ten row blocks cover the output array. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region. -/
theorem result (c : Dev nD) :
    (dat1 (F := Ideal) V c).arrAt 3 cfg1.N
      = Cert.GConv.denseRelu (F := Ideal) (V c main_v29) (V c main_v31) (V c main_v33) :=
  (dat1 (F := Ideal) V c).arrAt_eq_of_cover 3 _ (fun t _ => flushed V c t) cover

end Cert.KernelIdeal.Region1

end
-- ==== Proof.Region5.lean ====
/-
  The output layer's pallas_call over its ten row blocks: what grid point t writes back is block t of
  x · W + b (128 features to 1) of the whole arrays as the region finds them; the ten one-column blocks cover the
  output, so the output array after the region is that function of the three input arrays.
-/
import proofs.«175336_j8830452760706_1_alg».proof.Proof.Gen.KernelIdeal.Frame
import proofs.«175336_j8830452760706_1_alg».proof.Proof.Payloads
import proofs.«175336_j8830452760706_1_alg».proof.Proof.DenseAt
import Idealize.ShloMosaic.Lib.Pipeline.Value

set_option maxRecDepth 16384

noncomputable section

namespace Cert.KernelIdeal.Region5

open Cert.KernelIdeal Cert.KernelIdeal.Gen Cert.KernelIdeal.Blk
open Idealize.ShloMosaic Idealize.ShloMosaic.TcCoe Idealize.SL.Sem
open Idealize.ShloMosaic.Pipeline (Dat Cfg Window)
open Cert.ReferenceIdeal.Read (lidx_main_v93 ridx_main_v93)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input rows move with the output rows; weights and bias stay at block 0. -/
theorem idx_facts : ∀ t : Fin cfg5.N, win5_0.index t (0 : Fin 2) = win5_3.index t (0 : Fin 2)
    ∧ win5_0.index t (1 : Fin 2) = 0 ∧ win5_1.index t (0 : Fin 2) = 0 ∧ win5_1.index t (1 : Fin 2) = 0
    ∧ win5_2.index t (0 : Fin 1) = 0 ∧ win5_3.index t (1 : Fin 2) = 0 ∧ win5_3.index t (0 : Fin 2) < 10 :=
  (by decide +kernel : ∀ t : Fin grid5.N, _)

/-- Every row block is some point's. -/
theorem idx_onto : ∀ q : Fin 10, ∃ t : Fin cfg5.N, win5_3.index t = ![q.val, 0] :=
  (by decide +kernel : ∀ q : Fin 10, ∃ t : Fin grid5.N, win5_3.index t = ![q.val, 0])

/-- What point `t` writes back is block `t` of the output layer of the arrays as the region finds them. -/
theorem flushed (c : Dev nD) (t : Fin cfg5.N) :
    (dat5 (F := Ideal) V c).flushed 3 t = ((cfg5.win 3).blk t).view.read (Elt Ideal)
      (Cert.GConv.denseOut (F := Ideal) (V c main_v73) (V c main_arg9) (V c main_arg10)) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128x1) hz2, View.ld_unit_zero (S := S1) hz1]
  obtain ⟨e0, e1, e2, e3, e4, e5, e6⟩ := idx_facts t
  funext y
  refine (pay5_apply _ _ _ y).trans ?_
  refine Eq.trans ?_ (Cert.GConv.denseOut_apply _ _ _ _).symm
  have hx : ∀ k : Fin 128, iblk5 V c 0 t (rowO y k) = V c main_v73 (lidx_main_v93 (((cfg5.win 3).blk t).view.emb y) k) := fun k => by
    show V c main_v73 (((cfg5.win 0).blk t).view.emb (rowO y k)) = _
    refine congrArg _ (funext fun a => Fin.ext ?_)
    match a with
    | ⟨0, _⟩ => show win5_0.index t (0 : Fin 2) * 5000 + 1 * (y 0).val = win5_3.index t (0 : Fin 2) * 5000 + 1 * (y 0).val; omega
    | ⟨1, _⟩ => show win5_0.index t (1 : Fin 2) * 128 + 1 * k.val = k.val; omega
  have hw : ∀ k : Fin 128, iblk5 V c 1 t (colO y k) = V c main_arg9 (ridx_main_v93 (((cfg5.win 3).blk t).view.emb y) k) := fun k => by
    show V c main_arg9 (((cfg5.win 1).blk t).view.emb (colO y k)) = _
    refine congrArg _ (funext fun a => Fin.ext ?_)
    match a with
    | ⟨0, _⟩ => show win5_1.index t (0 : Fin 2) * 128 + 1 * k.val = k.val; omega
    | ⟨1, _⟩ => show win5_1.index t (1 : Fin 2) * 1 + 1 * (y 1).val = win5_3.index t (1 : Fin 2) * 1 + 1 * (y 1).val; omega
  have hb : iblk5 V c 2 t (biasO y) = V c main_arg10 (Cert.GConv.colOf1 (((cfg5.win 3).blk t).view.emb y)) := by
    show V c main_arg10 (((cfg5.win 2).blk t).view.emb (biasO y)) = _
    refine congrArg _ (funext fun a => Fin.ext ?_)
    match a with
    | ⟨0, _⟩ => show win5_2.index t (0 : Fin 1) * 1 + 1 * 0 = 0; omega
  rw [hb]
  refine congrArg (fun s => s + _) (Finset.sum_congr rfl fun k _ => ?_)
  rw [hx k, hw k]

/-- An index of the output array is in point `t`'s block iff each coordinate is in the block's range. -/
theorem mem_blk (t : Fin cfg5.N) (i : S50000x1.Idx) :
    i ∈ ((cfg5.win 3).blk t).view.set ↔ ∀ a : Fin 2, win5_3.index t a * S5000x1.size a ≤ (i a).val ∧ (i a).val < win5_3.index t a * S5000x1.size a + S5000x1.size a := by
  show i ∈ ((View.whole main_v74).slice (win5_3.rect t)).set ↔ _
  rw [View.set_slice_whole, Rect.mem_set_unit]
  exact Iff.rfl

/-- The ten row blocks cover the output array. -/
theorem cover (i : S50000x1.Idx) : ∃ t : Fin cfg5.N, (cfg5.win 3).flush t = true ∧ i ∈ ((cfg5.win 3).blk t).view.set := by
  have hi0 : (i 0).val < 50000 := (i 0).isLt
  have hi1 : (i 1).val < 1 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 1 ≤ (i 1).val ∧ (i 1).val < win5_3.index t (1 : Fin 2) * 1 + 1; omega

/-- The output array after the region. -/
theorem result (c : Dev nD) :
    (dat5 (F := Ideal) V c).arrAt 3 cfg5.N
      = Cert.GConv.denseOut (F := Ideal) (V c main_v73) (V c main_arg9) (V c main_arg10) :=
  (dat5 (F := Ideal) V c).arrAt_eq_of_cover 3 _ (fun t _ => flushed V c t) cover

end Cert.KernelIdeal.Region5

end
-- ==== Proof.KernelChain.lean ====
/-
  The kernel program's result array as a function of its arguments. Between the boundaries of the run a buffer
  changes only where a host operation or a pallas_call writes it; so the degree normalisers, the edge lists and the
  stacked parameters are carried unchanged to every later stretch, each pallas_call leaves its dense layer of what it
  found, and the result is the composition LayerSpec's `model` names.
-/
import proofs.«175336_j8830452760706_1_alg».proof.Proof.Gen.KernelIdeal.Frame
import proofs.«175336_j8830452760706_1_alg».proof.Proof.HostStretches
import proofs.«175336_j8830452760706_1_alg».proof.Proof.Region0
import proofs.«175336_j8830452760706_1_alg».proof.Proof.Region1
import proofs.«175336_j8830452760706_1_alg».proof.Proof.Region2
import proofs.«175336_j8830452760706_1_alg».proof.Proof.Region3
import proofs.«175336_j8830452760706_1_alg».proof.Proof.Region4
import proofs.«175336_j8830452760706_1_alg».proof.Proof.Region5

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.Pipeline (Dat)
open Cert.GConv (model denseIn denseRelu denseOut aggregate degNorm weight0 weight1 weight2 bias0 bias1 bias2)

variable (m : (ℓ : Loc nD τ sig) → Buf (Elt Ideal) ℓ) (ρ : Dev nD → PrngReg) (c : Dev nD)

/-- No operation of a stretch writes the buffer: decided reference by reference. -/
macro "unwritten" : tactic => `(tactic| exact List.forall_iff_forall_mem.mp (by
    simp only [hostOps0, hostOps0_1, hostOps0_2, hostOps0_3, hostOps0_4, hostOps1, hostOps2, hostOps3, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Buffers nothing writes keep their contents -/

/-- Through the five stretches before the first pallas_call. -/
theorem keep5 {b : Ref sig .tc}
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes) :
    W5 m ρ c (Proc.devRef .tc b) = m ((c : Thread nD τ).loc b) :=
  (StableHlo.after_of_forall_not_mem _ _ h4).trans ((StableHlo.after_of_forall_not_mem _ _ h3).trans
    ((StableHlo.after_of_forall_not_mem _ _ h2).trans ((StableHlo.after_of_forall_not_mem _ _ h1).trans
      ((StableHlo.after_of_forall_not_mem _ _ h0).trans rfl))))

/-- From the first pallas_call's entry to the entries of the second, third and fourth: through a pallas_call that does not
    have the buffer among its arrays, and a stretch that does not write it. -/
theorem carried {b : Ref sig .tc}
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) :
    W6 m ρ c (Proc.devRef .tc b) = W5 m ρ c (Proc.devRef .tc b)
    ∧ W8 m ρ c (Proc.devRef .tc b) = W5 m ρ c (Proc.devRef .tc b)
    ∧ W10 m ρ c (Proc.devRef .tc b) = W5 m ρ c (Proc.devRef .tc b) := by
  have e6 : W6 m ρ c (Proc.devRef .tc b) = W5 m ρ c (Proc.devRef .tc b) := W6_of_ne m ρ c b r0
  have e8 : W8 m ρ c (Proc.devRef .tc b) = W5 m ρ c (Proc.devRef .tc b) :=
    (W8_of_ne m ρ c b r1).trans ((StableHlo.after_of_forall_not_mem _ _ h1).trans e6)
  have e10 : W10 m ρ c (Proc.devRef .tc b) = W5 m ρ c (Proc.devRef .tc b) :=
    (W10_of_ne m ρ c b r2).trans ((StableHlo.after_of_forall_not_mem _ _ h2).trans e8)
  exact ⟨e6, e8, e10⟩

/-! ## The arguments and the normalisers at the first pallas_call's entry -/

theorem arg0_at5 : W5 m ρ c (Proc.devRef .tc main_arg0) = (m ((c : Thread nD τ).loc main_arg0)) := keep5 m ρ c (by unwritten) (by unwritten) (by unwritten) (by unwritten) (by unwritten)
theorem arg1_at5 : W5 m ρ c (Proc.devRef .tc main_arg1) = (m ((c : Thread nD τ).loc main_arg1)) := keep5 m ρ c (by unwritten) (by unwritten) (by unwritten) (by unwritten) (by unwritten)
theorem arg2_at5 : W5 m ρ c (Proc.devRef .tc main_arg2) = (m ((c : Thread nD τ).loc main_arg2)) := keep5 m ρ c (by unwritten) (by unwritten) (by unwritten) (by unwritten) (by unwritten)
theorem arg3_at5 : W5 m ρ c (Proc.devRef .tc main_arg3) = (m ((c : Thread nD τ).loc main_arg3)) := keep5 m ρ c (by unwritten) (by unwritten) (by unwritten) (by unwritten) (by unwritten)
theorem arg4_at5 : W5 m ρ c (Proc.devRef .tc main_arg4) = (m ((c : Thread nD τ).loc main_arg4)) := keep5 m ρ c (by unwritten) (by unwritten) (by unwritten) (by unwritten) (by unwritten)
theorem arg5_at5 : W5 m ρ c (Proc.devRef .tc main_arg5) = (m ((c : Thread nD τ).loc main_arg5)) := keep5 m ρ c (by unwritten) (by unwritten) (by unwritten) (by unwritten) (by unwritten)
theorem arg6_at5 : W5 m ρ c (Proc.devRef .tc main_arg6) = (m ((c : Thread nD τ).loc main_arg6)) := keep5 m ρ c (by unwritten) (by unwritten) (by unwritten) (by unwritten) (by unwritten)

theorem nsrc_at5 : W5 m ρ c (Proc.devRef .tc main_v11) = degNorm (F := Ideal) (m ((c : Thread nD τ).loc main_arg1)) := norm_src (W0 m ρ c)
theorem ndst_at5 : W5 m ρ c (Proc.devRef .tc main_v14) = degNorm (F := Ideal) (m ((c : Thread nD τ).loc main_arg2)) := norm_dst (W0 m ρ c)

/-! ## The output head's parameters, read back from the last boundary (no pallas_call writes an input window's array) -/

theorem arg7_at12 : V12 m ρ c main_arg7 = (m ((c : Thread nD τ).loc main_arg7)) :=
  (((W13_arr m ρ c 1).trans (((dat4 (V12 m ρ) c).arrAt_in 1 rfl _).trans (A_eq4 (V12 m ρ) c 1))).symm.trans
    ((W14_of_ne m ρ c main_arg7 (by decide)).symm.trans (W14_main_arg7 m ρ c)))
theorem arg8_at12 : V12 m ρ c main_arg8 = (m ((c : Thread nD τ).loc main_arg8)) :=
  (((W13_arr m ρ c 2).trans (((dat4 (V12 m ρ) c).arrAt_in 2 rfl _).trans (A_eq4 (V12 m ρ) c 2))).symm.trans
    ((W14_of_ne m ρ c main_arg8 (by decide)).symm.trans (W14_main_arg8 m ρ c)))
theorem arg9_at13 : V13 m ρ c main_arg9 = (m ((c : Thread nD τ).loc main_arg9)) :=
  ((W14_arr m ρ c 1).trans (((dat5 (V13 m ρ) c).arrAt_in 1 rfl _).trans (A_eq5 (V13 m ρ) c 1))).symm.trans (W14_main_arg9 m ρ c)
theorem arg10_at13 : V13 m ρ c main_arg10 = (m ((c : Thread nD τ).loc main_arg10)) :=
  ((W14_arr m ρ c 2).trans (((dat5 (V13 m ρ) c).arrAt_in 2 rfl _).trans (A_eq5 (V13 m ρ) c 2))).symm.trans (W14_main_arg10 m ρ c)

/-! ## The carried buffers at the entries of the second, third and fourth pallas_call's stretches -/

theorem nsrc_carried :
    W6 m ρ c (Proc.devRef .tc main_v11) = degNorm (F := Ideal) (m ((c : Thread nD τ).loc main_arg1)) ∧ W8 m ρ c (Proc.devRef .tc main_v11) = degNorm (F := Ideal) (m ((c : Thread nD τ).loc main_arg1)) ∧ W10 m ρ c (Proc.devRef .tc main_v11) = degNorm (F := Ideal) (m ((c : Thread nD τ).loc main_arg1)) := by
  obtain ⟨e6, e8, e10⟩ := carried m ρ c (b := main_v11) (by decide) (by unwritten) (by decide) (by unwritten) (by decide)
  exact ⟨e6.trans (nsrc_at5 m ρ c), e8.trans (nsrc_at5 m ρ c), e10.trans (nsrc_at5 m ρ c)⟩

theorem ndst_carried :
    W6 m ρ c (Proc.devRef .tc main_v14) = degNorm (F := Ideal) (m ((c : Thread nD τ).loc main_arg2)) ∧ W8 m ρ c (Proc.devRef .tc main_v14) = degNorm (F := Ideal) (m ((c : Thread nD τ).loc main_arg2)) ∧ W10 m ρ c (Proc.devRef .tc main_v14) = degNorm (F := Ideal) (m ((c : Thread nD τ).loc main_arg2)) := by
  obtain ⟨e6, e8, e10⟩ := carried m ρ c (b := main_v14) (by decide) (by unwritten) (by decide) (by unwritten) (by decide)
  exact ⟨e6.trans (ndst_at5 m ρ c), e8.trans (ndst_at5 m ρ c), e10.trans (ndst_at5 m ρ c)⟩

theorem src_carried :
    W6 m ρ c (Proc.devRef .tc main_arg1) = (m ((c : Thread nD τ).loc main_arg1)) ∧ W8 m ρ c (Proc.devRef .tc main_arg1) = (m ((c : Thread nD τ).loc main_arg1)) ∧ W10 m ρ c (Proc.devRef .tc main_arg1) = (m ((c : Thread nD τ).loc main_arg1)) := by
  obtain ⟨e6, e8, e10⟩ := carried m ρ c (b := main_arg1) (by decide) (by unwritten) (by decide) (by unwritten) (by decide)
  exact ⟨e6.trans (arg1_at5 m ρ c), e8.trans (arg1_at5 m ρ c), e10.trans (arg1_at5 m ρ c)⟩

theorem dst_carried :
    W6 m ρ c (Proc.devRef .tc main_arg2) = (m ((c : Thread nD τ).loc main_arg2)) ∧ W8 m ρ c (Proc.devRef .tc main_arg2) = (m ((c : Thread nD τ).loc main_arg2)) ∧ W10 m ρ c (Proc.devRef .tc main_arg2) = (m ((c : Thread nD τ).loc main_arg2)) := by
  obtain ⟨e6, e8, e10⟩ := carried m ρ c (b := main_arg2) (by decide) (by unwritten) (by decide) (by unwritten) (by decide)
  exact ⟨e6.trans (arg2_at5 m ρ c), e8.trans (arg2_at5 m ρ c), e10.trans (arg2_at5 m ρ c)⟩

theorem wg_carried :
    W6 m ρ c (Proc.devRef .tc main_arg5) = (m ((c : Thread nD τ).loc main_arg5)) ∧ W8 m ρ c (Proc.devRef .tc main_arg5) = (m ((c : Thread nD τ).loc main_arg5)) ∧ W10 m ρ c (Proc.devRef .tc main_arg5) = (m ((c : Thread nD τ).loc main_arg5)) := by
  obtain ⟨e6, e8, e10⟩ := carried m ρ c (b := main_arg5) (by decide) (by unwritten) (by decide) (by unwritten) (by decide)
  exact ⟨e6.trans (arg5_at5 m ρ c), e8.trans (arg5_at5 m ρ c), e10.trans (arg5_at5 m ρ c)⟩

theorem bg_carried :
    W6 m ρ c (Proc.devRef .tc main_arg6) = (m ((c : Thread nD τ).loc main_arg6)) ∧ W8 m ρ c (Proc.devRef .tc main_arg6) = (m ((c : Thread nD τ).loc main_arg6)) ∧ W10 m ρ c (Proc.devRef .tc main_arg6) = (m ((c : Thread nD τ).loc main_arg6)) := by
  obtain ⟨e6, e8, e10⟩ := carried m ρ c (b := main_arg6) (by decide) (by unwritten) (by decide) (by unwritten) (by decide)
  exact ⟨e6.trans (arg6_at5 m ρ c), e8.trans (arg6_at5 m ρ c), e10.trans (arg6_at5 m ρ c)⟩

/-! ## The stages' values -/

/-- The embedding of the node features. -/
abbrev emb : (⟨Cert.ReferenceIdeal.S50000x128, .f32⟩ : BufTy).Contents (Elt Ideal) := denseIn (F := Ideal) (m ((c : Thread nD τ).loc main_arg0)) (m ((c : Thread nD τ).loc main_arg3)) (m ((c : Thread nD τ).loc main_arg4))
/-- One message-passing step of `h` with this program's edge lists. -/
abbrev pass (h : (⟨Cert.ReferenceIdeal.S50000x128, .f32⟩ : BufTy).Contents (Elt Ideal)) : (⟨Cert.ReferenceIdeal.S50000x128, .f32⟩ : BufTy).Contents (Elt Ideal) :=
  aggregate (F := Ideal) h (degNorm (F := Ideal) (m ((c : Thread nD τ).loc main_arg1))) (degNorm (F := Ideal) (m ((c : Thread nD τ).loc main_arg2))) (m ((c : Thread nD τ).loc main_arg1)) (m ((c : Thread nD τ).loc main_arg2))
abbrev hid1 : (⟨Cert.ReferenceIdeal.S50000x128, .f32⟩ : BufTy).Contents (Elt Ideal) :=
  denseRelu (F := Ideal) (pass m c (emb m c)) (weight0 (F := Ideal) (m ((c : Thread nD τ).loc main_arg5))) (bias0 (F := Ideal) (m ((c : Thread nD τ).loc main_arg6)))
abbrev hid2 : (⟨Cert.ReferenceIdeal.S50000x128, .f32⟩ : BufTy).Contents (Elt Ideal) :=
  denseRelu (F := Ideal) (pass m c (hid1 m c)) (weight1 (F := Ideal) (m ((c : Thread nD τ).loc main_arg5))) (bias1 (F := Ideal) (m ((c : Thread nD τ).loc main_arg6)))
abbrev hid3 : (⟨Cert.ReferenceIdeal.S50000x128, .f32⟩ : BufTy).Contents (Elt Ideal) :=
  denseRelu (F := Ideal) (pass m c (hid2 m c)) (weight2 (F := Ideal) (m ((c : Thread nD τ).loc main_arg5))) (bias2 (F := Ideal) (m ((c : Thread nD τ).loc main_arg6)))
abbrev hid4 : (⟨Cert.ReferenceIdeal.S50000x128, .f32⟩ : BufTy).Contents (Elt Ideal) :=
  denseRelu (F := Ideal) (hid3 m c) (m ((c : Thread nD τ).loc main_arg7)) (m ((c : Thread nD τ).loc main_arg8))

theorem embed_value : W6 m ρ c (Proc.devRef .tc main_v15) = emb m c :=
  (W6_arr m ρ c 3).trans ((Region0.result (V5 m ρ) c).trans
    (congr (congr (congrArg (denseIn (F := Ideal)) (arg0_at5 m ρ c)) (arg3_at5 m ρ c)) (arg4_at5 m ρ c)))

theorem layer1_value : W8 m ρ c (Proc.devRef .tc main_v34) = hid1 m c := by
  have x1 : W7 m ρ c (Proc.devRef .tc main_v29) = pass m c (emb m c) :=
    (stretch1_x (W6 m ρ c)).trans
      (congr (congr (congr (congr (congrArg (aggregate (F := Ideal)) (embed_value m ρ c)) (nsrc_carried m ρ c).1) (ndst_carried m ρ c).1) (src_carried m ρ c).1) (dst_carried m ρ c).1)
  have w1 : W7 m ρ c (Proc.devRef .tc main_v31) = weight0 (F := Ideal) (m ((c : Thread nD τ).loc main_arg5)) :=
    (stretch1_w (W6 m ρ c)).trans (congrArg (weight0 (F := Ideal)) (wg_carried m ρ c).1)
  have b1 : W7 m ρ c (Proc.devRef .tc main_v33) = bias0 (F := Ideal) (m ((c : Thread nD τ).loc main_arg6)) :=
    (stretch1_b (W6 m ρ c)).trans (congrArg (bias0 (F := Ideal)) (bg_carried m ρ c).1)
  exact (W8_arr m ρ c 3).trans ((Region1.result (V7 m ρ) c).trans (congr (congr (congrArg (denseRelu (F := Ideal)) x1) w1) b1))

theorem layer2_value : W10 m ρ c (Proc.devRef .tc main_v53) = hid2 m c := by
  have x2 : W9 m ρ c (Proc.devRef .tc main_v48) = pass m c (hid1 m c) :=
    (stretch2_x (W8 m ρ c)).trans
      (congr (congr (congr (congr (congrArg (aggregate (F := Ideal)) (layer1_value m ρ c)) (nsrc_carried m ρ c).2.1) (ndst_carried m ρ c).2.1) (src_carried m ρ c).2.1) (dst_carried m ρ c).2.1)
  have w2 : W9 m ρ c (Proc.devRef .tc main_v50) = weight1 (F := Ideal) (m ((c : Thread nD τ).loc main_arg5)) :=
    (stretch2_w (W8 m ρ c)).trans (congrArg (weight1 (F := Ideal)) (wg_carried m ρ c).2.1)
  have b2 : W9 m ρ c (Proc.devRef .tc main_v52) = bias1 (F := Ideal) (m ((c : Thread nD τ).loc main_arg6)) :=
    (stretch2_b (W8 m ρ c)).trans (congrArg (bias1 (F := Ideal)) (bg_carried m ρ c).2.1)
  exact (W10_arr m ρ c 3).trans ((Region2.result (V9 m ρ) c).trans (congr (congr (congrArg (denseRelu (F := Ideal)) x2) w2) b2))

theorem layer3_value : W12 m ρ c (Proc.devRef .tc main_v72) = hid3 m c := by
  have x3 : W11 m ρ c (Proc.devRef .tc main_v67) = pass m c (hid2 m c) :=
    (stretch3_x (W10 m ρ c)).trans
      (congr (congr (congr (congr (congrArg (aggregate (F := Ideal)) (layer2_value m ρ c)) (nsrc_carried m ρ c).2.2) (ndst_carried m ρ c).2.2) (src_carried m ρ c).2.2) (dst_carried m ρ c).2.2)
  have w3 : W11 m ρ c (Proc.devRef .tc main_v69) = weight2 (F := Ideal) (m ((c : Thread nD τ).loc main_arg5)) :=
    (stretch3_w (W10 m ρ c)).trans (congrArg (weight2 (F := Ideal)) (wg_carried m ρ c).2.2)
  have b3 : W11 m ρ c (Proc.devRef .tc main_v71) = bias2 (F := Ideal) (m ((c : Thread nD τ).loc main_arg6)) :=
    (stretch3_b (W10 m ρ c)).trans (congrArg (bias2 (F := Ideal)) (bg_carried m ρ c).2.2)
  exact (W12_arr m ρ c 3).trans ((Region3.result (V11 m ρ) c).trans (congr (congr (congrArg (denseRelu (F := Ideal)) x3) w3) b3))

theorem head_value : W13 m ρ c (Proc.devRef .tc main_v73) = hid4 m c :=
  (W13_arr m ρ c 3).trans ((Region4.result (V12 m ρ) c).trans
    (congr (congr (congrArg (denseRelu (F := Ideal)) (layer3_value m ρ c)) (arg7_at12 m ρ c)) (arg8_at12 m ρ c)))

/-! ## The result -/

/-- The kernel program's result array is `model` of its argument arrays. -/
theorem result :
    W14 m ρ c (Proc.devRef .tc main_v74)
      = model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 3).trans ((Region5.result (V13 m ρ) c).trans
    (congr (congr (congrArg (denseOut (F := Ideal)) (head_value m ρ c)) (arg9_at13 m ρ c)) (arg10_at13 m ρ c)))

end Cert.KernelIdeal.Chain

end
-- ==== Proof.RefValue.lean ====
/-
  The reference program's result, as the generated run states it, is the stage composition of LayerSpec:
  the same operations in the same order, so the two terms agree by unfolding the stage names.
-/
import proofs.«175336_j8830452760706_1_alg».proof.Proof.Gen.ReferenceIdeal.Run
import proofs.«175336_j8830452760706_1_alg».proof.Proof.LayerSpec

noncomputable section

namespace Cert.GConv

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The reference's result array is `model` of its argument arrays. -/
theorem reference_result (m : (ℓ : Loc nD τ sig) → Buf (Elt F) ℓ) (c : Dev nD) :
    Cert.ReferenceIdeal.Value.res_main_v96 (F := F) m c
      = model (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v96 model denseOut denseRelu denseIn aggregate degNorm
    weight0 weight1 weight2 bias0 bias1 bias2
  rfl

end Cert.GConv

end
-- ==== Proof.lean ====
/-
  The certificate. Over the extended reals both programs compute the same graph-convolution stack: an embedding
  x · W + b, three rounds of degree-normalised message passing each followed by max(x · W + b, 0), and a two-layer
  output head. The kernel program runs every dense layer as a pallas_call over ten blocks of 5000 rows (its bf16
  narrowing is the identity there, its zero-accumulator matrix product the plain sum over the contracted axis) and
  everything else as the same host operations the reference runs; so both result arrays are LayerSpec's `model` of
  the arguments. No law of the extended reals beyond that identification is used, and the precondition is never opened.
  The three frames are the generated ones (the reference's is its run with the result dropped); the idealization
  ledger is empty.
-/
import proofs.«175336_j8830452760706_1_alg».proof.Defs
import proofs.«175336_j8830452760706_1_alg».proof.Proof.Gen.Kernel
import proofs.«175336_j8830452760706_1_alg».proof.Proof.Gen.Kernel.Frame
import proofs.«175336_j8830452760706_1_alg».proof.Proof.Gen.KernelIdeal
import proofs.«175336_j8830452760706_1_alg».proof.Proof.Gen.KernelIdeal.Frame
import proofs.«175336_j8830452760706_1_alg».proof.Proof.Gen.ReferenceIdeal
import proofs.«175336_j8830452760706_1_alg».proof.Proof.Gen.ReferenceIdeal.Run
import proofs.«175336_j8830452760706_1_alg».proof.Proof.Gen.Pre_finite_inputs
import proofs.«175336_j8830452760706_1_alg».proof.Proof.RunNamed
import proofs.«175336_j8830452760706_1_alg».proof.Proof.KernelChain
import proofs.«175336_j8830452760706_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `model` of the arguments: the kernel program's by the chain of its
    boundaries, the reference's by its composed term; the arguments agree by hypothesis. -/
theorem algebraic : Cert.algebraic_KernelIdeal_ReferenceIdeal := by
  intro m ρ m' ρ' _ hagree
  refine ⟨fun c => Cert.GConv.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.GConv.reference_result, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
